-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8x2048x4096 : Shape := ⟨3, ![8, 2048, 4096]⟩
abbrev S8x4096x2048 : Shape := ⟨3, ![8, 4096, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn_part1 {F : FTy → Type} [FloatOps F] (main_v13 : IVec S_ 1) (main_v16 : IVec S8x4096x2048 1) : IVec S_ 1 :=
  let main_c_5 : IVec S_ 1 := constantI S_ 1 1#1
  let main_v17 : IVec S_ 1 := (fun x v => Host.reduce IntOp.andi x v reducesTo_S8x4096x2048_S_d0_1_2 h_S_) main_v16 main_c_5
  let main_v18 : IVec S_ 1 := andi main_v13 main_v17
  main_v18

def fn {F : FTy → Type} [FloatOps F] (main_arg0 : FVec F S8x2048x2048 .f32) (main_arg1 : FVec F S8x2048x4096 .f32) (main_arg2 : FVec F S8x2048x4096 .f32) (main_arg3 : FVec F S8x4096x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x4096 .f32 := Host.absf main_arg1
  let main_cst_0 : FVec F S_ .f32 := constant S_ .f32 0x7F800000#32
  let main_v5 : FVec F S8x2048x4096 .f32 := broadcastInDim S8x2048x4096 ![] bcast_S_S8x2048x4096 main_cst_0
  let main_v6 : IVec S8x2048x4096 1 := cmpf .olt main_v4 main_v5
  let main_c_1 : IVec S_ 1 := constantI S_ 1 1#1
  let main_v7 : IVec S_ 1 := (fun x v => Host.reduce IntOp.andi x v reducesTo_S8x2048x4096_S_d0_1_2 h_S_) main_v6 main_c_1
  let main_v8 : IVec S_ 1 := andi main_v3 main_v7
  let main_v9 : FVec F S8x2048x4096 .f32 := Host.absf main_arg2
  let main_cst_2 : FVec F S_ .f32 := constant S_ .f32 0x7F800000#32
  let main_v10 : FVec F S8x2048x4096 .f32 := broadcastInDim S8x2048x4096 ![] bcast_S_S8x2048x4096 main_cst_2
  let main_v11 : IVec S8x2048x4096 1 := cmpf .olt main_v9 main_v10
  let main_c_3 : IVec S_ 1 := constantI S_ 1 1#1
  let main_v12 : IVec S_ 1 := (fun x v => Host.reduce IntOp.andi x v reducesTo_S8x2048x4096_S_d0_1_2 h_S_) main_v11 main_c_3
  let main_v13 : IVec S_ 1 := andi main_v8 main_v12
  let main_v14 : FVec F S8x4096x2048 .f32 := Host.absf main_arg3
  let main_cst_4 : FVec F S_ .f32 := constant S_ .f32 0x7F800000#32
  let main_v15 : FVec F S8x4096x2048 .f32 := broadcastInDim S8x4096x2048 ![] bcast_S_S8x4096x2048 main_cst_4
  let main_v16 : IVec S8x4096x2048 1 := cmpf .olt main_v14 main_v15
  fn_part1 (F := F) main_v13 main_v16
-- ==== Kernel.lean ====
abbrev S8x2048x2048 : Shape := ⟨3, ![8, 2048, 2048]⟩
abbrev S8x2048x4096 : Shape := ⟨3, ![8, 2048, 4096]⟩
abbrev S8x4096x2048 : Shape := ⟨3, ![8, 4096, 2048]⟩
abbrev S1x256x2048 : Shape := ⟨3, ![1, 256, 2048]⟩
abbrev S1x2048x256 : Shape := ⟨3, ![1, 2048, 256]⟩
abbrev S256x2048 : Shape := ⟨2, ![256, 2048]⟩
abbrev S2048x256 : Shape := ⟨2, ![2048, 256]⟩
abbrev S256x256 : Shape := ⟨2, ![256, 256]⟩

abbrev nBuf : Space → Nat
  | .hbm => 5
  | .vmem => 11
  | .smem => 0
  | _ => 0

abbrev bufTy : (tb : Table) → Fin (tcTables nBuf tb) → BufTy
  | .hbm, ⟨0, _⟩ => ⟨S8x2048x2048, .f32⟩
  | .hbm, ⟨1, _⟩ => ⟨S8x2048x4096, .f32⟩
  | .hbm, ⟨2, _⟩ => ⟨S8x2048x4096, .f32⟩
  | .hbm, ⟨3, _⟩ => ⟨S8x4096x2048, .f32⟩
  | .hbm, ⟨4, _⟩ => ⟨S8x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S256x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 16], ![false, false, false]⟩

def k0_cond2 (i : grid0.Coords) : BitVec 1 :=
  let arg2 : BitVec 32 := BitVec.ofNat 32 (i 2).val
  let c15_i32 : BitVec 32 := 15#32
  let v27 : BitVec 1 := Scalar.cmpi .eq arg2 c15_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S256x2048_S1x256x2048 : S256x2048.ShapeCasts S1x256x2048
  dot_S256x2048_S2048x256_S256x256_1_0_0_1_n_n_wf : DotDims.WF S256x2048 S2048x256 S256x256 [1] [0] [0] [1] [] []
  dot_S256x256_S256x2048_S256x2048_1_0_0_1_n_n_wf : DotDims.WF S256x256 S256x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x2048x2048.size a
  hwx0_0 : ∀ i : grid0.Coords, EltTy.bits .f32 = 32 ∨ (Rect.block (s := S8x2048x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x4096.size a
  hwx0_1 : ∀ i : grid0.Coords, EltTy.bits .f32 = 32 ∨ (Rect.block (s := S8x2048x4096) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x4096.size a
  hwx0_2 : ∀ i : grid0.Coords, EltTy.bits .f32 = 32 ∨ (Rect.block (s := S8x2048x4096) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x4096x2048.size a
  hwx0_3 : ∀ i : grid0.Coords, EltTy.bits .f32 = 32 ∨ (Rect.block (s := S8x4096x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S8x2048x2048.size a
  hwx0_4 : ∀ i : grid0.Coords, EltTy.bits .f32 = 32 ∨ (Rect.block (s := S8x2048x2048) S1x256x2048.size (cc0_transform_4 i) (hinb0_4 i)).WholeWords (EltTy.packing .f32)

variable [Facts₀]

def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x2048 : Shape := ⟨3, ![8, 2048, 2048]⟩
abbrev S8x2048x4096 : Shape := ⟨3, ![8, 2048, 4096]⟩
abbrev S8x4096x2048 : Shape := ⟨3, ![8, 4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x4096, .f32⟩
  | .hbm, ⟨2, _⟩ => ⟨S8x2048x4096, .f32⟩
  | .hbm, ⟨3, _⟩ => ⟨S8x4096x2048, .f32⟩
  | .hbm, ⟨4, _⟩ => ⟨S8x2048x4096, .f32⟩
  | .hbm, ⟨5, _⟩ => ⟨S8x2048x4096, .f32⟩
  | .hbm, ⟨6, _⟩ => ⟨S8x2048x4096, .f32⟩
  | .hbm, ⟨7, _⟩ => ⟨S8x2048x4096, .f32⟩
  | .hbm, ⟨8, _⟩ => ⟨S_, .f32⟩
  | .hbm, ⟨9, _⟩ => ⟨S8x2048x4096, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S8x2048x4096, .f32⟩
  | .hbm, ⟨16, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8x2048x4096 : S_.BroadcastsInDim S8x2048x4096 (![] : Fin 0 → Fin S8x2048x4096.rank)
  dot_S8x2048x2048_S8x2048x4096_S8x2048x4096_2_1_1_2_0_0_wf : DotDims.WF S8x2048x2048 S8x2048x4096 S8x2048x4096 [2] [1] [1] [2] [0] [0]
  dot_S8x2048x4096_S8x4096x2048_S8x2048x2048_2_1_1_2_0_0_wf : DotDims.WF S8x2048x4096 S8x4096x2048 S8x2048x2048 [2] [1] [1] [2] [0] [0]

variable [Facts₀]

def dot_S8x2048x2048_S8x2048x4096_S8x2048x4096_2_1_1_2_0_0 : DotDims S8x2048x2048 S8x2048x4096 S8x2048x4096 where
  lhsContracting := [2]
  rhsContracting := [1]
  lhsNonContracting := [1]
  rhsNonContracting := [2]
  lhsBatch := [0]
  rhsBatch := [0]
  wf := dot_S8x2048x2048_S8x2048x4096_S8x2048x4096_2_1_1_2_0_0_wf
def dot_S8x2048x4096_S8x4096x2048_S8x2048x2048_2_1_1_2_0_0 : DotDims S8x2048x4096 S8x4096x2048 S8x2048x2048 where
  lhsContracting := [2]
  rhsContracting := [1]
  lhsNonContracting := [1]
  rhsNonContracting := [2]
  lhsBatch := [0]
  rhsBatch := [0]
  wf := dot_S8x2048x4096_S8x4096x2048_S8x2048x2048_2_1_1_2_0_0_wf

class Facts : Prop extends Facts₀ where

variable [Facts]
-- ==== Proof.Pieces.lean ====
/-
  What one run of the kernel body leaves behind, as values.

  At a grid point the body loads the four input blocks whole, adds the block's contribution to the running total kept in
  the scratch buffer (`k0_pay2`), and stores the total back whole. At the first of a row tile's sixteen points it first
  stores zeros (`k0_pay1`) and reads them back as the running total; at the last it reads the new total back and stores it,
  reshaped, into the output block (`k0_pay3`). Every store covers its buffer, so what a buffer holds afterwards is the last
  store's value, and a load of a whole buffer reads what was stored there.
-/
import proofs.«167826_j44890998177889_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a row tile's first point the scratch ends at the block's contribution added to zeros. -/
theorem scratch_first (c : Dev nD) (i : grid0.Coords) (arg3 : Memref sig .tc .vmem S1x256x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x256x2048 .f32) (harg7 : arg7.IsWhole) (arg8 : Memref sig .tc .vmem S256x2048 .f32) (harg8 : arg8.IsWhole) (hc0 : cond0_0 i) (hc1 : ¬cond0_1 i)
    (x0 : Vec F S1x256x2048 .f32) (x1 : Vec F S1x2048x256 .f32) (x2 : Vec F S1x2048x256 .f32) (x3 : Vec F S1x256x2048 .f32) :
    sout0_A_0 c i arg3 harg3 arg4 harg4 arg5 harg5 arg6 harg6 arg7 harg7 arg8 harg8 hc0 hc1 x0 x1 x2 x3 = k0_pay2 x0 x1 x2 x3 k0_pay1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S256x2048) hz2, View.readCov_unit_zero (S := S256x2048) _ hz2]
  simp only [View.readAt_eq_ld, harg3.read_unread, harg4.read_unread, harg5.read_unread, harg6.read_unread, harg8.read_unread, View.ld_unit_zero (S := S1x256x2048) hz3, View.ld_unit_zero (S := S1x2048x256) hz3, View.ld_unit_zero (S := S256x2048) hz2, View.readCov_unit_zero (S := S256x2048) _ hz2]

/-- At a middle point the scratch ends at the block's contribution added to what the point before left. -/
theorem scratch_middle (c : Dev nD) (i : grid0.Coords) (arg3 : Memref sig .tc .vmem S1x256x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : ¬cond0_1 i)
    (x0 : Vec F S1x256x2048 .f32) (x1 : Vec F S1x2048x256 .f32) (x2 : Vec F S1x2048x256 .f32) (x3 : Vec F S1x256x2048 .f32) (xs0 : Vec F S256x2048 .f32) :
    sout0_B_0 c i arg3 harg3 arg4 harg4 arg5 harg5 arg6 harg6 arg7 harg7 arg8 harg8 hc0 hc1 x0 x1 x2 x3 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz2]
  simp only [View.readAt_eq_ld, harg3.read_unread, harg4.read_unread, harg5.read_unread, harg6.read_unread, harg8.read_unread, View.ld_unit_zero (S := S1x256x2048) hz3, View.ld_unit_zero (S := S1x2048x256) hz3, View.ld_unit_zero (S := S256x2048) hz2, View.readCov_unit_zero (S := S256x2048) _ hz2]

/-- At a row tile's last point the scratch ends the same way … -/
theorem scratch_last (c : Dev nD) (i : grid0.Coords) (arg3 : Memref sig .tc .vmem S1x256x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : cond0_1 i)
    (x0 : Vec F S1x256x2048 .f32) (x1 : Vec F S1x2048x256 .f32) (x2 : Vec F S1x2048x256 .f32) (x3 : Vec F S1x256x2048 .f32) (xs0 : Vec F S256x2048 .f32) :
    sout0_C_0 c i arg3 harg3 arg4 harg4 arg5 harg5 arg6 harg6 arg7 harg7 arg8 harg8 hc0 hc1 x0 x1 x2 x3 xs0 = k0_pay2 x0 x1 x2 x3 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg3.read_unread, harg4.read_unread, harg5.read_unread, harg6.read_unread, harg8.read_unread, View.ld_unit_zero (S := S1x256x2048) hz3, View.ld_unit_zero (S := S1x2048x256) hz3, View.ld_unit_zero (S := S256x2048) hz2, View.readCov_unit_zero (S := S256x2048) _ hz2]

/-- … and the output block holds that total, reshaped. -/
theorem out_last (c : Dev nD) (i : grid0.Coords) (arg3 : Memref sig .tc .vmem S1x256x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : cond0_1 i)
    (x0 : Vec F S1x256x2048 .f32) (x1 : Vec F S1x2048x256 .f32) (x2 : Vec F S1x2048x256 .f32) (x3 : Vec F S1x256x2048 .f32) (xs0 : Vec F S256x2048 .f32) :
    out0_C_4 c i arg3 harg3 arg4 harg4 arg5 harg5 arg6 harg6 arg7 harg7 arg8 harg8 hc0 hc1 x0 x1 x2 x3 xs0 = k0_pay3 (k0_pay2 x0 x1 x2 x3 xs0) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz3]
  simp only [View.readAt_eq_ld, harg3.read_unread, harg4.read_unread, harg5.read_unread, harg6.read_unread, harg8.read_unread, View.ld_unit_zero (S := S1x256x2048) hz3, View.ld_unit_zero (S := S1x2048x256) hz3, View.ld_unit_zero (S := S256x2048) hz2, View.readCov_unit_zero (S := S256x2048) _ hz2]

end Cert.KernelIdeal.Pieces

end
-- ==== Proof.Payload.lean ====
/-
  The kernel body's arithmetic at one grid point, read at an index over the extended reals.

  With `xb` the point's [256, 2048] block of token rows, `ab`, `bb` its [2048, 256] blocks of the two up-projection
  weights and `cb` its [256, 2048] block of down-projection weights, the body adds to the running total `acc`, at row `r` and
  output feature `d`,  `∑ h < 256, ((g r h · logistic (g r h)) · u r h) · cb[h, d]`  where  `g r h = ∑ d' < 2048, xb[r, d'] · ab[d', h]`  and
  `u` the same against `bb`. The changes of float format around the three block products are the identity on extended
  reals, each block product into a zero accumulator is the plain sum over its contraction index, and the reshapes only
  drop the blocks' leading unit axis.
-/
import proofs.«167826_j44890998177889_1_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.Payload

open Cert.KernelIdeal Cert.KernelIdeal.Gen Idealize.ShloMosaic Idealize.ShloMosaic.ValueIdx

/-! ## The up projections' block product: [256, 2048] × [2048, 256] -/

theorem up_lhs_0 (j : S256x256.Idx) (q : dot_S256x2048_S2048x256_S256x256_1_0_0_1_n_n.contr.Idx) :
    (dot_S256x2048_S2048x256_S256x256_1_0_0_1_n_n.lhsIdx j q 0).val = (j 0).val := by
  unfold DotDims.lhsIdx
  rw [dif_neg (show ¬(0 : Fin S256x2048.rank) ∈ dot_S256x2048_S2048x256_S256x256_1_0_0_1_n_n.lhsBatch by decide), dif_pos (show (0 : Fin S256x2048.rank) ∈ dot_S256x2048_S2048x256_S256x256_1_0_0_1_n_n.lhsNonContracting by decide)]
  rfl
theorem up_lhs_1 (j : S256x256.Idx) (q : dot_S256x2048_S2048x256_S256x256_1_0_0_1_n_n.contr.Idx) :
    (dot_S256x2048_S2048x256_S256x256_1_0_0_1_n_n.lhsIdx j q 1).val = (q ⟨0, by decide⟩).val :=
  dot_S256x2048_S2048x256_S256x256_1_0_0_1_n_n.lhsIdx_val_of_single rfl j q
theorem up_rhs_0 (j : S256x256.Idx) (q : dot_S256x2048_S2048x256_S256x256_1_0_0_1_n_n.contr.Idx) :
    (dot_S256x2048_S2048x256_S256x256_1_0_0_1_n_n.rhsIdx j q 0).val = (q ⟨0, by decide⟩).val :=
  dot_S256x2048_S2048x256_S256x256_1_0_0_1_n_n.rhsIdx_val_of_single rfl j q
theorem up_rhs_1 (j : S256x256.Idx) (q : dot_S256x2048_S2048x256_S256x256_1_0_0_1_n_n.contr.Idx) :
    (dot_S256x2048_S2048x256_S256x256_1_0_0_1_n_n.rhsIdx j q 1).val = (j 1).val := by
  unfold DotDims.rhsIdx
  rw [dif_neg (show ¬(1 : Fin S2048x256.rank) ∈ dot_S256x2048_S2048x256_S256x256_1_0_0_1_n_n.rhsBatch by decide), dif_pos (show (1 : Fin S2048x256.rank) ∈ dot_S256x2048_S2048x256_S256x256_1_0_0_1_n_n.rhsNonContracting by decide)]
  rfl

/-- An up projection's block product into the zero accumulator, at row `r` and hidden unit `h` of the block: the sum over
    the 2048 input features. -/
theorem up_apply (a : FVec Ideal S256x2048 .bf16) (b : FVec Ideal S2048x256 .bf16) (r : Fin 256) (h : Fin 256) :
    matmul dot_S256x2048_S2048x256_S256x256_1_0_0_1_n_n none a b (constant (F := Ideal) S256x256 .f32 0x00000000#32) (ix2 r h)
      = ∑ d : Fin 2048, a (ix2 r d) * b (ix2 d h) := by
  simp only [matmul]
  rw [Ideal.matmul_constant_zero_apply, ← Equiv.sum_comp (contrEquiv1 dot_S256x2048_S2048x256_S256x256_1_0_0_1_n_n 2048 rfl rfl).symm]
  refine Finset.sum_congr rfl fun k _ => ?_
  have hk := contrEquiv1_symm_val dot_S256x2048_S2048x256_S256x256_1_0_0_1_n_n 2048 rfl rfl k
  have el : dot_S256x2048_S2048x256_S256x256_1_0_0_1_n_n.lhsIdx (ix2 r h) ((contrEquiv1 dot_S256x2048_S2048x256_S256x256_1_0_0_1_n_n 2048 rfl rfl).symm k) = ix2 r k := funext fun a => Fin.ext (by
    match a with
    | ⟨0, _⟩ => exact up_lhs_0 _ _
    | ⟨1, _⟩ => exact (up_lhs_1 _ _).trans hk)
  have er : dot_S256x2048_S2048x256_S256x256_1_0_0_1_n_n.rhsIdx (ix2 r h) ((contrEquiv1 dot_S256x2048_S2048x256_S256x256_1_0_0_1_n_n 2048 rfl rfl).symm k) = ix2 k h := funext fun a => Fin.ext (by
    match a with
    | ⟨0, _⟩ => exact (up_rhs_0 _ _).trans hk
    | ⟨1, _⟩ => exact up_rhs_1 _ _)
  rw [el, er]

/-! ## The down projection's block product: [256, 256] × [256, 2048] -/

theorem down_lhs_0 (j : S256x2048.Idx) (q : dot_S256x256_S256x2048_S256x2048_1_0_0_1_n_n.contr.Idx) :
    (dot_S256x256_S256x2048_S256x2048_1_0_0_1_n_n.lhsIdx j q 0).val = (j 0).val := by
  unfold DotDims.lhsIdx
  rw [dif_neg (show ¬(0 : Fin S256x256.rank) ∈ dot_S256x256_S256x2048_S256x2048_1_0_0_1_n_n.lhsBatch by decide), dif_pos (show (0 : Fin S256x256.rank) ∈ dot_S256x256_S256x2048_S256x2048_1_0_0_1_n_n.lhsNonContracting by decide)]
  rfl
theorem down_lhs_1 (j : S256x2048.Idx) (q : dot_S256x256_S256x2048_S256x2048_1_0_0_1_n_n.contr.Idx) :
    (dot_S256x256_S256x2048_S256x2048_1_0_0_1_n_n.lhsIdx j q 1).val = (q ⟨0, by decide⟩).val :=
  dot_S256x256_S256x2048_S256x2048_1_0_0_1_n_n.lhsIdx_val_of_single rfl j q
theorem down_rhs_0 (j : S256x2048.Idx) (q : dot_S256x256_S256x2048_S256x2048_1_0_0_1_n_n.contr.Idx) :
    (dot_S256x256_S256x2048_S256x2048_1_0_0_1_n_n.rhsIdx j q 0).val = (q ⟨0, by decide⟩).val :=
  dot_S256x256_S256x2048_S256x2048_1_0_0_1_n_n.rhsIdx_val_of_single rfl j q
theorem down_rhs_1 (j : S256x2048.Idx) (q : dot_S256x256_S256x2048_S256x2048_1_0_0_1_n_n.contr.Idx) :
    (dot_S256x256_S256x2048_S256x2048_1_0_0_1_n_n.rhsIdx j q 1).val = (j 1).val := by
  unfold DotDims.rhsIdx
  rw [dif_neg (show ¬(1 : Fin S256x2048.rank) ∈ dot_S256x256_S256x2048_S256x2048_1_0_0_1_n_n.rhsBatch by decide), dif_pos (show (1 : Fin S256x2048.rank) ∈ dot_S256x256_S256x2048_S256x2048_1_0_0_1_n_n.rhsNonContracting by decide)]
  rfl

/-- The down projection's block product into the zero accumulator, at row `r` and output feature `d`: the sum over the
    block's 256 hidden units. -/
theorem down_apply (a : FVec Ideal S256x256 .bf16) (b : FVec Ideal S256x2048 .bf16) (r : Fin 256) (d : Fin 2048) :
    matmul dot_S256x256_S256x2048_S256x2048_1_0_0_1_n_n none a b (constant (F := Ideal) S256x2048 .f32 0x00000000#32) (ix2 r d)
      = ∑ h : Fin 256, a (ix2 r h) * b (ix2 h d) := by
  simp only [matmul]
  rw [Ideal.matmul_constant_zero_apply, ← Equiv.sum_comp (contrEquiv1 dot_S256x256_S256x2048_S256x2048_1_0_0_1_n_n 256 rfl rfl).symm]
  refine Finset.sum_congr rfl fun k _ => ?_
  have hk := contrEquiv1_symm_val dot_S256x256_S256x2048_S256x2048_1_0_0_1_n_n 256 rfl rfl k
  have el : dot_S256x256_S256x2048_S256x2048_1_0_0_1_n_n.lhsIdx (ix2 r d) ((contrEquiv1 dot_S256x256_S256x2048_S256x2048_1_0_0_1_n_n 256 rfl rfl).symm k) = ix2 r k := funext fun a => Fin.ext (by
    match a with
    | ⟨0, _⟩ => exact down_lhs_0 _ _
    | ⟨1, _⟩ => exact (down_lhs_1 _ _).trans hk)
  have er : dot_S256x256_S256x2048_S256x2048_1_0_0_1_n_n.rhsIdx (ix2 r d) ((contrEquiv1 dot_S256x256_S256x2048_S256x2048_1_0_0_1_n_n 256 rfl rfl).symm k) = ix2 k d := funext fun a => Fin.ext (by
    match a with
    | ⟨0, _⟩ => exact (down_rhs_0 _ _).trans hk
    | ⟨1, _⟩ => exact down_rhs_1 _ _)
  rw [el, er]

/-! ## The payloads -/

/-- The block's up projection of row `r` onto its hidden unit `h`. -/
def upAt (xb : Vec Ideal S1x256x2048 .f32) (wb : Vec Ideal S1x2048x256 .f32) (r : Fin 256) (h : Fin 256) : EReal :=
  ∑ d : Fin 2048, xb (ix3 (0 : Fin 1) r d) * wb (ix3 (0 : Fin 1) d h)

/-- The logistic function of a vector, at an index. -/
theorem logistic_at {s : Shape} (v : FVec Ideal s .f32) (i : s.Idx) : logistic v i = Ideal.logistic (v i) := rfl

/-- A block's up projection as the body computes it: the format changes are the identity and the reshapes drop the blocks'
    leading unit axis. -/
theorem up_block (xb : Vec Ideal S1x256x2048 .f32) (wb : Vec Ideal S1x2048x256 .f32) (r : Fin 256) (h : Fin 256) :
    matmul dot_S256x2048_S2048x256_S256x256_1_0_0_1_n_n none
        (truncf .bf16 (shapeCast S256x2048 xb shapeCasts_S1x256x2048_S256x2048) bitsLt_bf16_f32)
        (truncf .bf16 (shapeCast S2048x256 wb shapeCasts_S1x2048x256_S2048x256) bitsLt_bf16_f32)
        (constant (F := Ideal) S256x256 .f32 0x00000000#32) (ix2 r h)
      = upAt xb wb r h := by
  rw [up_apply]
  unfold upAt
  simp only [truncf_apply, shapeCast_1ab_ab_apply]

/-- The reset stores zeros. -/
theorem zero_apply (j : S256x2048.Idx) : k0_pay1 (F := Ideal) j = 0 := by
  unfold k0_pay1
  rw [shapeCast_self]
  show Ideal.ofBits .f32 0x00000000#32 = 0
  exact Ideal.ofBits_zero_f32

/-- The accumulating store: the running total plus the block's gated, down-projected contribution. -/
theorem step_apply (xb : Vec Ideal S1x256x2048 .f32) (ab bb : Vec Ideal S1x2048x256 .f32) (cb : Vec Ideal S1x256x2048 .f32)
    (acc : Vec Ideal S256x2048 .f32) (r : Fin 256) (d : Fin 2048) :
    k0_pay2 (F := Ideal) xb ab bb cb acc (ix2 r d)
      = acc (ix2 r d) + ∑ h : Fin 256, ((upAt xb ab r h * Ideal.logistic (upAt xb ab r h)) * upAt xb bb r h) * cb (ix3 (0 : Fin 1) h d) := by
  unfold k0_pay2
  rw [shapeCast_self, addf_apply, down_apply]
  refine congrArg (acc (ix2 r d) + ·) (Finset.sum_congr rfl fun h _ => ?_)
  rw [truncf_apply, truncf_apply, mulf_apply, mulf_apply, logistic_at, up_block, up_block, shapeCast_1ab_ab_apply]

/-- The write-out only adds the block's leading unit axis. -/
theorem out_apply (acc : Vec Ideal S256x2048 .f32) (u : Fin 1) (r : Fin 256) (d : Fin 2048) :
    k0_pay3 (F := Ideal) acc (ix3 u r d) = acc (ix2 r d) := by
  unfold k0_pay3
  exact shapeCast_ab_1ab_apply _ _ u r d

end Cert.KernelIdeal.Payload

end
-- ==== Proof.Spec.lean ====
/-
  The per-expert gated MLP as ONE function of the four argument arrays, over the extended reals.

  For expert `e`, token row `T` and hidden unit `h` the two up projections are the plain sums
  `proj x w e T h = ∑ d, x[e, T, d] · w[e, d, h]`; the hidden activation is
  `hidden = (g · logistic g) · u` with `g = proj x w1`, `u = proj x w2`; the result is the down projection
  `mlp[e, T, d] = ∑ h, hidden[e, T, h] · w3[e, h, d]` over all 4096 hidden units.

  A sum over the 4096 hidden units is the same extended real whether it is taken at once or as sixteen
  consecutive stretches of 256 added one after the other to a running total that starts at zero: addition of
  extended reals is commutative and associative, so no finiteness is needed. `term` is the summand as a function
  of a natural number (zero past the hidden width), which lets the running total be a sum over an initial segment of
  the naturals: `range_stretch` adds one stretch, `mlpAt_eq_range` identifies the full segment with `mlp`.
-/
import Idealize.ShloMosaic.PureOps.Ideal
import Idealize.ShloMosaic.Lib.ValueIdx

noncomputable section

open scoped BigOperators

namespace Cert.Spec

open Idealize.ShloMosaic Idealize.ShloMosaic.ValueIdx

/-- The shapes of `x` (and of the result), of `w1` / `w2`, and of `w3`. -/
abbrev SX : Shape := ⟨3, ![8, 2048, 2048]⟩
abbrev SW : Shape := ⟨3, ![8, 2048, 4096]⟩
abbrev SV : Shape := ⟨3, ![8, 4096, 2048]⟩

/-- An up projection: row `T` of expert `e`'s tokens against column `h` of that expert's weights. -/
def proj (x : SX.Idx → EReal) (w : SW.Idx → EReal) (e : Fin 8) (T : Fin 2048) (h : Fin 4096) : EReal :=
  ∑ d : Fin 2048, x (ix3 e T d) * w (ix3 e d h)

/-- The gated hidden activation `(g · logistic g) · u`. -/
def hidden (x : SX.Idx → EReal) (w1 w2 : SW.Idx → EReal) (e : Fin 8) (T : Fin 2048) (h : Fin 4096) : EReal :=
  (proj x w1 e T h * Ideal.logistic (proj x w1 e T h)) * proj x w2 e T h

/-- The down projection's summand at hidden unit `q`, as a function of a natural number: zero past the hidden width. -/
def term (x : SX.Idx → EReal) (w1 w2 : SW.Idx → EReal) (w3 : SV.Idx → EReal) (e : Fin 8) (T : Fin 2048) (d : Fin 2048)
    (q : ℕ) : EReal :=
  if hq : q < 4096 then hidden x w1 w2 e T ⟨q, hq⟩ * w3 (ix3 e ⟨q, hq⟩ d) else 0

/-- The result at expert `e`, token row `T`, output feature `d`. -/
def mlpAt (x : SX.Idx → EReal) (w1 w2 : SW.Idx → EReal) (w3 : SV.Idx → EReal) (e : Fin 8) (T : Fin 2048) (d : Fin 2048) : EReal :=
  ∑ h : Fin 4096, hidden x w1 w2 e T h * w3 (ix3 e h d)

/-- The whole result array. -/
def mlp (x : SX.Idx → EReal) (w1 w2 : SW.Idx → EReal) (w3 : SV.Idx → EReal) : SX.Idx → EReal :=
  fun i => mlpAt x w1 w2 w3 (i 0) (i 1) (i 2)

/-- The summand inside the hidden width. -/
theorem term_of_lt (x : SX.Idx → EReal) (w1 w2 : SW.Idx → EReal) (w3 : SV.Idx → EReal) (e : Fin 8) (T : Fin 2048) (d : Fin 2048)
    (q : ℕ) (hq : q < 4096) : term x w1 w2 w3 e T d q = hidden x w1 w2 e T ⟨q, hq⟩ * w3 (ix3 e ⟨q, hq⟩ d) := by
  unfold term; rw [dif_pos hq]

/-- The sum over all hidden units is the sum of `term` over the first 4096 naturals. -/
theorem mlpAt_eq_range (x : SX.Idx → EReal) (w1 w2 : SW.Idx → EReal) (w3 : SV.Idx → EReal) (e : Fin 8) (T : Fin 2048) (d : Fin 2048) :
    mlpAt x w1 w2 w3 e T d = ∑ q ∈ Finset.range 4096, term x w1 w2 w3 e T d q := by
  rw [Finset.sum_range]
  unfold mlpAt
  exact Finset.sum_congr rfl fun h _ => (term_of_lt x w1 w2 w3 e T d h.val h.isLt).symm

/-- One more stretch of 256 summands: the running total over the first `256·(j+1)` naturals is the one over the first
    `256·j` plus the stretch. -/
theorem range_stretch (f : ℕ → EReal) (j : ℕ) :
    ∑ q ∈ Finset.range (256 * (j + 1)), f q = ∑ q ∈ Finset.range (256 * j), f q + ∑ h : Fin 256, f (256 * j + h.val) := by
  rw [show 256 * (j + 1) = 256 * j + 256 by ring, Finset.sum_range_add, Finset.sum_range (fun h => f (256 * j + h))]

/-- The first stretch alone, over a running total that starts at zero. -/
theorem range_first (f : ℕ → EReal) :
    ∑ q ∈ Finset.range (256 * (0 + 1)), f q = 0 + ∑ h : Fin 256, f (256 * 0 + h.val) := by
  rw [range_stretch, Nat.mul_zero, Finset.range_zero, Finset.sum_empty]

/-! ## Grid points

The kernel's grid is 8 experts × 8 row tiles × 16 hidden stretches, in row-major order: point `n` works on expert
`n / 128`, on token rows `256·((n / 16) mod 8) … + 255` and on hidden units `256·(n mod 16) … + 255`. The three
coordinates are stated for every natural number (reduced modulo their ranges), so that a statement about a point needs no
bound. -/

/-- The expert point `n` works on. -/
def expertOf (n : ℕ) : Fin 8 := ⟨(n / 128) % 8, Nat.mod_lt _ (by decide)⟩

/-- The token row that row `r` of point `n`'s row tile is. -/
def rowOf (n : ℕ) (r : Fin 256) : Fin 2048 :=
  ⟨256 * ((n / 16) % 8) + r.val, by have h1 := r.isLt; have h2 := Nat.mod_lt (n / 16) (show 0 < 8 by decide); omega⟩

/-- The hidden unit that unit `h` of point `n`'s hidden stretch is. -/
def hidOf (n : ℕ) (h : Fin 256) : Fin 4096 :=
  ⟨256 * (n % 16) + h.val, by have h1 := h.isLt; have h2 := Nat.mod_lt n (show 0 < 16 by decide); omega⟩

theorem expertOf_val (n : ℕ) : (expertOf n).val = (n / 128) % 8 := rfl
theorem rowOf_val (n : ℕ) (r : Fin 256) : (rowOf n r).val = 256 * ((n / 16) % 8) + r.val := rfl
theorem hidOf_val (n : ℕ) (h : Fin 256) : (hidOf n h).val = 256 * (n % 16) + h.val := rfl

end Cert.Spec

end
-- ==== Proof.Blocks.lean ====
/-
  What the pipeline's windows hold at a grid point, and which points' output blocks cover the result array.
  Point `n` of the 8 × 8 × 16 grid reads rows `256·((n/16) mod 8) …` of expert `n/128`'s tokens, columns
  `256·(n mod 16) …` of that expert's two up-projection weights and rows `256·(n mod 16) …` of its down-projection
  weights; the result's block (expert, row tile) is written back at the last of the tile's sixteen points.
-/
import proofs.«167826_j44890998177889_1_alg».proof.Proof.Gen.KernelIdeal.Frame.Runs
import proofs.«167826_j44890998177889_1_alg».proof.Proof.Spec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable {F : FTy → Type} [FloatOps F]
variable (m : (ℓ : Loc nD τ sig) → Buf (Elt F) ℓ)

/-! ## The block indices, decided once over the 1024 grid points

The grid is 8 × 8 × 16 in row-major order, so point `t` has coordinates `((t/128) mod 8, (t/16) mod 8, t mod 16)`. Each
window's index map picks two of the three coordinates and a constant zero. -/

/-- The token window's block index: (expert, row tile, 0). -/
theorem idx0 : ∀ t : Fin cfg0.N, win0_0.index t (0 : Fin 3) = (t.val / 128) % 8
    ∧ win0_0.index t (1 : Fin 3) = (t.val / 16) % 8 ∧ win0_0.index t (2 : Fin 3) = 0 :=
  (by decide +kernel : ∀ t : Fin grid0.N, win0_0.index t (0 : Fin 3) = (t.val / 128) % 8
    ∧ win0_0.index t (1 : Fin 3) = (t.val / 16) % 8 ∧ win0_0.index t (2 : Fin 3) = 0)

/-- The first up-projection window's block index: (expert, 0, hidden stretch). -/
theorem idx1 : ∀ t : Fin cfg0.N, win0_1.index t (0 : Fin 3) = (t.val / 128) % 8
    ∧ win0_1.index t (1 : Fin 3) = 0 ∧ win0_1.index t (2 : Fin 3) = t.val % 16 :=
  (by decide +kernel : ∀ t : Fin grid0.N, win0_1.index t (0 : Fin 3) = (t.val / 128) % 8
    ∧ win0_1.index t (1 : Fin 3) = 0 ∧ win0_1.index t (2 : Fin 3) = t.val % 16)

/-- The second up-projection window's block index: (expert, 0, hidden stretch). -/
theorem idx2 : ∀ t : Fin cfg0.N, win0_2.index t (0 : Fin 3) = (t.val / 128) % 8
    ∧ win0_2.index t (1 : Fin 3) = 0 ∧ win0_2.index t (2 : Fin 3) = t.val % 16 :=
  (by decide +kernel : ∀ t : Fin grid0.N, win0_2.index t (0 : Fin 3) = (t.val / 128) % 8
    ∧ win0_2.index t (1 : Fin 3) = 0 ∧ win0_2.index t (2 : Fin 3) = t.val % 16)

/-- The down-projection window's block index: (expert, hidden stretch, 0). -/
theorem idx3 : ∀ t : Fin cfg0.N, win0_3.index t (0 : Fin 3) = (t.val / 128) % 8
    ∧ win0_3.index t (1 : Fin 3) = t.val % 16 ∧ win0_3.index t (2 : Fin 3) = 0 :=
  (by decide +kernel : ∀ t : Fin grid0.N, win0_3.index t (0 : Fin 3) = (t.val / 128) % 8
    ∧ win0_3.index t (1 : Fin 3) = t.val % 16 ∧ win0_3.index t (2 : Fin 3) = 0)

/-- The result window's block index: (expert, row tile, 0). -/
theorem idx4 : ∀ t : Fin cfg0.N, win0_4.index t (0 : Fin 3) = (t.val / 128) % 8
    ∧ win0_4.index t (1 : Fin 3) = (t.val / 16) % 8 ∧ win0_4.index t (2 : Fin 3) = 0 :=
  (by decide +kernel : ∀ t : Fin grid0.N, win0_4.index t (0 : Fin 3) = (t.val / 128) % 8
    ∧ win0_4.index t (1 : Fin 3) = (t.val / 16) % 8 ∧ win0_4.index t (2 : Fin 3) = 0)

/-- An index of the result array lies in point `t`'s block iff on each axis its coordinate is in the block's range:
    from `index × size` up to, not including, `index × size + size`. -/
theorem mem_blk4 (t : Fin cfg0.N) (i : S8x2048x2048.Idx) :
    i ∈ ((cfg0.win 4).blk t).view.set ↔ ∀ a : Fin 3, win0_4.index t a * S1x256x2048.size a ≤ (i a).val
      ∧ (i a).val < win0_4.index t a * S1x256x2048.size a + S1x256x2048.size a := by
  show i ∈ ((View.whole main_v0).slice (win0_4.rect t)).set ↔ _
  rw [View.set_slice_whole, Rect.mem_set_unit]
  exact Iff.rfl

/-- The token block at point `t`: row `r`, feature `d` of the block is row `rowOf t r` of expert `expertOf t`. -/
theorem xblk_apply (c : Dev nD) (t : Fin cfg0.N) (r : Fin 256) (d : Fin 2048) :
    (iblk m c 0 t : Vec F S1x256x2048 .f32) (ix3 0 r d)
      = (m ((c : Thread nD τ).loc main_arg0) : Vec F S8x2048x2048 .f32) (ix3 (expertOf t.val) (rowOf t.val r) d) := by
  obtain ⟨e0, e1, e2⟩ := idx0 t
  unfold iblk
  rw [View.read_apply]
  show V m c main_arg0 (((cfg0.win 0).blk t).view.emb (ix3 0 r d)) = _
  unfold V
  congr 1
  funext a
  apply Fin.ext
  -- a block's coordinate in the array is the block index times the block size plus the coordinate inside the block
  match a with
  | ⟨0, _⟩ => show win0_0.index t (0 : Fin 3) * 1 + 1 * 0 = (t.val / 128) % 8; omega
  | ⟨1, _⟩ => show win0_0.index t (1 : Fin 3) * 256 + 1 * r.val = 256 * ((t.val / 16) % 8) + r.val; omega
  | ⟨2, _⟩ => show win0_0.index t (2 : Fin 3) * 2048 + 1 * d.val = d.val; omega

/-- The first up-projection weights' block at point `t`: column `h` of the block is hidden unit `hidOf t h`. -/
theorem w1blk_apply (c : Dev nD) (t : Fin cfg0.N) (d : Fin 2048) (h : Fin 256) :
    (iblk m c 1 t : Vec F S1x2048x256 .f32) (ix3 0 d h)
      = (m ((c : Thread nD τ).loc main_arg1) : Vec F S8x2048x4096 .f32) (ix3 (expertOf t.val) d (hidOf t.val h)) := by
  obtain ⟨e0, e1, e2⟩ := idx1 t
  unfold iblk
  rw [View.read_apply]
  show V m c main_arg1 (((cfg0.win 1).blk t).view.emb (ix3 0 d h)) = _
  unfold V
  congr 1
  funext a
  apply Fin.ext
  match a with
  | ⟨0, _⟩ => show win0_1.index t (0 : Fin 3) * 1 + 1 * 0 = (t.val / 128) % 8; omega
  | ⟨1, _⟩ => show win0_1.index t (1 : Fin 3) * 2048 + 1 * d.val = d.val; omega
  | ⟨2, _⟩ => show win0_1.index t (2 : Fin 3) * 256 + 1 * h.val = 256 * (t.val % 16) + h.val; omega

/-- The second up-projection weights' block, likewise. -/
theorem w2blk_apply (c : Dev nD) (t : Fin cfg0.N) (d : Fin 2048) (h : Fin 256) :
    (iblk m c 2 t : Vec F S1x2048x256 .f32) (ix3 0 d h)
      = (m ((c : Thread nD τ).loc main_arg2) : Vec F S8x2048x4096 .f32) (ix3 (expertOf t.val) d (hidOf t.val h)) := by
  obtain ⟨e0, e1, e2⟩ := idx2 t
  unfold iblk
  rw [View.read_apply]
  show V m c main_arg2 (((cfg0.win 2).blk t).view.emb (ix3 0 d h)) = _
  unfold V
  congr 1
  funext a
  apply Fin.ext
  match a with
  | ⟨0, _⟩ => show win0_2.index t (0 : Fin 3) * 1 + 1 * 0 = (t.val / 128) % 8; omega
  | ⟨1, _⟩ => show win0_2.index t (1 : Fin 3) * 2048 + 1 * d.val = d.val; omega
  | ⟨2, _⟩ => show win0_2.index t (2 : Fin 3) * 256 + 1 * h.val = 256 * (t.val % 16) + h.val; omega

/-- The down-projection weights' block at point `t`: row `h` of the block is hidden unit `hidOf t h`. -/
theorem w3blk_apply (c : Dev nD) (t : Fin cfg0.N) (h : Fin 256) (d : Fin 2048) :
    (iblk m c 3 t : Vec F S1x256x2048 .f32) (ix3 0 h d)
      = (m ((c : Thread nD τ).loc main_arg3) : Vec F S8x4096x2048 .f32) (ix3 (expertOf t.val) (hidOf t.val h) d) := by
  obtain ⟨e0, e1, e2⟩ := idx3 t
  unfold iblk
  rw [View.read_apply]
  show V m c main_arg3 (((cfg0.win 3).blk t).view.emb (ix3 0 h d)) = _
  unfold V
  congr 1
  funext a
  apply Fin.ext
  match a with
  | ⟨0, _⟩ => show win0_3.index t (0 : Fin 3) * 1 + 1 * 0 = (t.val / 128) % 8; omega
  | ⟨1, _⟩ => show win0_3.index t (1 : Fin 3) * 256 + 1 * h.val = 256 * (t.val % 16) + h.val; omega
  | ⟨2, _⟩ => show win0_3.index t (2 : Fin 3) * 2048 + 1 * d.val = d.val; omega

/-- Where the result's block at point `t` lies in the result array. -/
theorem out_emb (t : Fin cfg0.N) (y : S1x256x2048.Idx) :
    (((cfg0.win 4).blk t).view.emb y : S8x2048x2048.Idx) = ix3 (expertOf t.val) (rowOf t.val (y 1)) (y 2) := by
  obtain ⟨e0, e1, e2⟩ := idx4 t
  have hy0 : (y 0).val < 1 := (y 0).isLt
  funext a
  apply Fin.ext
  match a with
  | ⟨0, _⟩ => show win0_4.index t (0 : Fin 3) * 1 + 1 * (y 0).val = (t.val / 128) % 8; omega
  | ⟨1, _⟩ => show win0_4.index t (1 : Fin 3) * 256 + 1 * (y 1).val = 256 * ((t.val / 16) % 8) + (y 1).val; omega
  | ⟨2, _⟩ => show win0_4.index t (2 : Fin 3) * 2048 + 1 * (y 2).val = (y 2).val; omega

/-- Every index of the result array lies in the block of a point that writes its block back. -/
theorem out_cover (i : S8x2048x2048.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 2048 := (i 2).isLt
  -- the last of the sixteen points of the tile (expert `i 0`, row tile `(i 1) / 256`)
  have hN : 128 * (i 0).val + 16 * ((i 1).val / 256) + 15 < cfg0.N := by
    show _ < grid0.N
    rw [N_0]; omega
  obtain ⟨t, ht⟩ : ∃ t : Fin cfg0.N, t.val = 128 * (i 0).val + 16 * ((i 1).val / 256) + 15 := ⟨⟨_, hN⟩, rfl⟩
  obtain ⟨e0, e1, e2⟩ := idx4 t
  refine ⟨t, (flush0_4 t).mpr (by omega), ?_⟩
  rw [mem_blk4]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 256 ≤ (i 1).val ∧ (i 1).val < win0_4.index t (1 : Fin 3) * 256 + 256
    omega
  | ⟨2, _⟩ =>
    show win0_4.index t (2 : Fin 3) * 2048 ≤ (i 2).val ∧ (i 2).val < win0_4.index t (2 : Fin 3) * 2048 + 2048
    omega

end Cert.KernelIdeal.Blocks

end
-- ==== Proof.Accum.lean ====
/-
  The running total the kernel keeps in its scratch buffer, over the extended reals.

  The sixteen points of a row tile share their expert and their token rows and walk the hidden units in stretches of 256.
  Point `n` adds to the running total, at row `r` and output feature `d`, its ADDEND: the sum over its stretch of the down
  projection's summand `term` (the gated hidden activation times the down-projection weight). The first point of a tile
  starts from zeros. So after the tile's `j+1`-th point the scratch holds `0 +` the sum of the first `j+1` addends, and after its
  last point the sum over all sixteen stretches, which is the sum over all 4096 hidden units: the result `mlpAt`.
-/
import proofs.«167826_j44890998177889_1_alg».proof.Proof.Gen.KernelIdeal.Value
import proofs.«167826_j44890998177889_1_alg».proof.Proof.Pieces
import proofs.«167826_j44890998177889_1_alg».proof.Proof.Payload
import proofs.«167826_j44890998177889_1_alg».proof.Proof.Blocks
import proofs.«167826_j44890998177889_1_alg».proof.Proof.Spec
import Idealize.ShloMosaic.Lib.Pipeline.Value

set_option maxRecDepth 16384

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ)

/-- The four argument arrays on core `c`. -/
abbrev X (c : Dev nD) : Vec Ideal S8x2048x2048 .f32 := m ((c : Thread nD τ).loc main_arg0)
abbrev W1 (c : Dev nD) : Vec Ideal S8x2048x4096 .f32 := m ((c : Thread nD τ).loc main_arg1)
abbrev W2 (c : Dev nD) : Vec Ideal S8x2048x4096 .f32 := m ((c : Thread nD τ).loc main_arg2)
abbrev W3 (c : Dev nD) : Vec Ideal S8x4096x2048 .f32 := m ((c : Thread nD τ).loc main_arg3)

/-- The four blocks the body loads at point `t`. -/
abbrev xb (c : Dev nD) (t : Fin cfg0.N) : Vec Ideal S1x256x2048 .f32 := iblk m c 0 t
abbrev ab (c : Dev nD) (t : Fin cfg0.N) : Vec Ideal S1x2048x256 .f32 := iblk m c 1 t
abbrev bb (c : Dev nD) (t : Fin cfg0.N) : Vec Ideal S1x2048x256 .f32 := iblk m c 2 t
abbrev cb (c : Dev nD) (t : Fin cfg0.N) : Vec Ideal S1x256x2048 .f32 := iblk m c 3 t

/-- Point `n`'s addend: over its stretch of 256 hidden units, the down projection's summand for its expert and token row. -/
def addend (c : Dev nD) (n : ℕ) : S256x2048.Idx → EReal := fun j =>
  ∑ h : Fin 256, term (X m c) (W1 m c) (W2 m c) (W3 m c) (expertOf n) (rowOf n (j 0)) (j 1) (hidOf n h).val

/-- A block's up projection is the array's, at the point's expert, token row and hidden unit. -/
theorem up1_eq (c : Dev nD) (t : Fin cfg0.N) (r h : Fin 256) :
    Payload.upAt (xb m c t) (ab m c t) r h = proj (X m c) (W1 m c) (expertOf t.val) (rowOf t.val r) (hidOf t.val h) := by
  unfold Payload.upAt proj
  refine Finset.sum_congr rfl fun d' _ => ?_
  exact congrArg₂ (· * ·) (Blocks.xblk_apply m c t r d') (Blocks.w1blk_apply m c t d' h)

theorem up2_eq (c : Dev nD) (t : Fin cfg0.N) (r h : Fin 256) :
    Payload.upAt (xb m c t) (bb m c t) r h = proj (X m c) (W2 m c) (expertOf t.val) (rowOf t.val r) (hidOf t.val h) := by
  unfold Payload.upAt proj
  refine Finset.sum_congr rfl fun d' _ => ?_
  exact congrArg₂ (· * ·) (Blocks.xblk_apply m c t r d') (Blocks.w2blk_apply m c t d' h)

/-- The body's accumulating store at point `t`: the running total plus the point's addend. -/
theorem point_step (c : Dev nD) (t : Fin cfg0.N) (acc : Vec Ideal S256x2048 .f32) (r : Fin 256) (d : Fin 2048) :
    k0_pay2 (F := Ideal) (xb m c t) (ab m c t) (bb m c t) (cb m c t) acc (ix2 r d) = acc (ix2 r d) + addend m c t.val (ix2 r d) := by
  refine (Payload.step_apply (xb m c t) (ab m c t) (bb m c t) (cb m c t) acc r d).trans ?_
  refine congrArg (acc (ix2 r d) + ·) (Finset.sum_congr rfl fun h _ => ?_)
  rw [up1_eq, up2_eq, term_of_lt _ _ _ _ _ _ _ _ (hidOf t.val h).isLt]
  unfold Cert.Spec.hidden
  exact congrArg (_ * ·) (Blocks.w3blk_apply m c t h d)

/-- The generated fold's reset and step are "add the point's addend" (to zeros at a tile's first point). -/
theorem reset_apply (c : Dev nD) (b : ℕ) (hb : b % 16 = 0) (h : b < cfg0.N) (acc : Vec Ideal S256x2048 .f32) (i : S256x2048.Idx) :
    Value.scAt0_0 m c b h acc i = 0 + addend m c b i := by
  obtain ⟨r, d, rfl⟩ : ∃ (r : Fin 256) (d : Fin 2048), i = ix2 r d := ⟨i 0, i 1, eq_ix2 i⟩
  have h1 : ¬b % 16 = 15 := by omega
  unfold Value.scAt0_0
  rw [dif_pos hb, dif_neg h1]
  refine (congrFun (Pieces.scratch_first (F := Ideal) c (grid0.coords (⟨b, h⟩ : Fin cfg0.N)) (ms0_0 (⟨b, h⟩ : Fin cfg0.N)) (hs0_0 (⟨b, h⟩ : Fin cfg0.N)) (ms0_1 (⟨b, h⟩ : Fin cfg0.N)) (hs0_1 (⟨b, h⟩ : Fin cfg0.N)) (ms0_2 (⟨b, h⟩ : Fin cfg0.N)) (hs0_2 (⟨b, h⟩ : Fin cfg0.N)) (ms0_3 (⟨b, h⟩ : Fin cfg0.N)) (hs0_3 (⟨b, h⟩ : Fin cfg0.N)) (ms0_4 (⟨b, h⟩ : Fin cfg0.N)) (hs0_4 (⟨b, h⟩ : Fin cfg0.N)) scM0_0 (Memref.isWhole_whole _) ((hcond0_0 (⟨b, h⟩ : Fin cfg0.N)).mpr hb) (fun hh => h1 ((hcond0_1 (⟨b, h⟩ : Fin cfg0.N)).mp hh)) (xb m c ⟨b, h⟩) (ab m c ⟨b, h⟩) (bb m c ⟨b, h⟩) (cb m c ⟨b, h⟩)) (ix2 r d)).trans ?_
  rw [point_step m c ⟨b, h⟩ _ r d, Payload.zero_apply]

theorem step_apply (c : Dev nD) (n : ℕ) (hn : ¬n % 16 = 0) (h : n < cfg0.N) (acc : Vec Ideal S256x2048 .f32) (i : S256x2048.Idx) :
    Value.scAt0_0 m c n h acc i = acc i + addend m c n i := by
  obtain ⟨r, d, rfl⟩ : ∃ (r : Fin 256) (d : Fin 2048), i = ix2 r d := ⟨i 0, i 1, eq_ix2 i⟩
  unfold Value.scAt0_0
  rw [dif_neg hn]
  by_cases h1 : n % 16 = 15
  · rw [dif_pos h1]
    refine (congrFun (Pieces.scratch_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) (fun hh => hn ((hcond0_0 (⟨n, h⟩ : Fin cfg0.N)).mp hh)) ((hcond0_1 (⟨n, h⟩ : Fin cfg0.N)).mpr h1) (xb m c ⟨n, h⟩) (ab m c ⟨n, h⟩) (bb m c ⟨n, h⟩) (cb m c ⟨n, h⟩) acc) (ix2 r d)).trans ?_
    exact point_step m c ⟨n, h⟩ acc r d
  · rw [dif_neg h1]
    refine (congrFun (Pieces.scratch_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) (fun hh => hn ((hcond0_0 (⟨n, h⟩ : Fin cfg0.N)).mp hh)) (fun hh => h1 ((hcond0_1 (⟨n, h⟩ : Fin cfg0.N)).mp hh)) (xb m c ⟨n, h⟩) (ab m c ⟨n, h⟩) (bb m c ⟨n, h⟩) (cb m c ⟨n, h⟩) acc) (ix2 r d)).trans ?_
    exact point_step m c ⟨n, h⟩ acc r d

/-- After point `t` the scratch holds zero plus the addends of the tile's points up to `t`. -/
theorem scratch_after (c : Dev nD) (t : Fin cfg0.N) (i : S256x2048.Idx) :
    (outsAt0 m c t.val t.isLt).2 i = 0 + ∑ s ∈ Finset.range (t.val % 16 + 1), addend m c (16 * (t.val / 16) + s) i := by
  rw [Value.soutsAt0_0_eq m c t]
  exact Pipeline.accAt_add_apply (fun n h => Value.scAt0_0 m c n h (VS0_0.read (Elt Ideal) VS0_0.junk)) (Value.scAt0_0 m c)
    (fun _ => 0) (addend m c) (16 * (t.val / 16)) 15
    (fun h i => reset_apply m c _ (by omega) h _ i)
    (fun n h acc i h1 h2 => step_apply m c n (by omega) h acc i)
    (t.val % 16) (by omega) _ i

/-- Sixteen — or any number of — consecutive stretches of 256 make an initial segment of the naturals. -/
theorem sum_stretches (f : ℕ → EReal) : ∀ j : ℕ,
    ∑ s ∈ Finset.range j, ∑ h : Fin 256, f (256 * s + h.val) = ∑ q ∈ Finset.range (256 * j), f q
  | 0 => by simp
  | j + 1 => by rw [Finset.sum_range_succ, sum_stretches f j, ← range_stretch]

/-- After a tile's last point the scratch holds the result for the tile's expert and token rows. -/
theorem scratch_total (c : Dev nD) (t : Fin cfg0.N) (h15 : t.val % 16 = 15) (r : Fin 256) (d : Fin 2048) :
    (outsAt0 m c t.val t.isLt).2 (ix2 r d) = mlpAt (X m c) (W1 m c) (W2 m c) (W3 m c) (expertOf t.val) (rowOf t.val r) d := by
  rw [scratch_after, h15, zero_add, mlpAt_eq_range, show (4096 : ℕ) = 256 * 16 from rfl, ← sum_stretches]
  refine Finset.sum_congr rfl fun s hs => ?_
  have hs' : s < 16 := Finset.mem_range.mp hs
  unfold addend
  refine Finset.sum_congr rfl fun h _ => ?_
  have he : expertOf (16 * (t.val / 16) + s) = expertOf t.val := Fin.ext (by rw [expertOf_val, expertOf_val]; omega)
  have hr : rowOf (16 * (t.val / 16) + s) r = rowOf t.val r := Fin.ext (by rw [rowOf_val, rowOf_val]; omega)
  have hh : (hidOf (16 * (t.val / 16) + s) h).val = 256 * s + h.val := by rw [hidOf_val]; omega
  rw [he, hh]
  exact congrArg (fun T => term (X m c) (W1 m c) (W2 m c) (W3 m c) (expertOf t.val) T d (256 * s + h.val)) hr

end Cert.KernelIdeal.Accum

end
-- ==== Proof.Result.lean ====
/-
  The kernel's result array, over the extended reals: the gated MLP of the four argument arrays.

  The output block of (expert, row tile) is stored, and written back, at the last of the tile's sixteen points only; what
  is stored there is the scratch's running total after that point, which is the result for the tile's expert and token rows.
  The sixty-four blocks written back tile the result array, so the array ends holding `mlp` everywhere.
-/
import proofs.«167826_j44890998177889_1_alg».proof.Proof.Accum

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx Cert.Spec Cert.KernelIdeal.Accum
open Idealize.ShloMosaic.Pipeline (Dat)

variable (m : (ℓ : Loc nD τ sig) → Buf (Elt Ideal) ℓ) (ρ : Dev nD → PrngReg)

/-- What the result array ends holding on core `c`. -/
abbrev result (c : Dev nD) : Buf (Elt Ideal) ((c : Thread nD τ).loc main_v0) :=
  mlp (X m c) (W1 m c) (W2 m c) (W3 m c)

/-- At a tile's last point the output block is the scratch's new total, reshaped. -/
theorem out_block (c : Dev nD) (t : Fin cfg0.N) (h0 : ¬t.val % 16 = 0) (h15 : t.val % 16 = 15) :
    (outsAt0 m c t.val t.isLt).1 = k0_pay3 (F := Ideal) ((outsAt0 m c t.val t.isLt).2) := by
  rw [outsAt0_C m c t h0 h15]
  dsimp only
  exact (Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h15) (xb m c t) (ab m c t) (bb m c t) (cb m c t) (outsAt0 m c (t.val - 1) (Nat.lt_of_le_of_lt (Nat.sub_le _ _) t.isLt)).2).trans
    (congrArg (k0_pay3 (F := Ideal)) (Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h15) (xb m c t) (ab m c t) (bb m c t) (cb m c t) (outsAt0 m c (t.val - 1) (Nat.lt_of_le_of_lt (Nat.sub_le _ _) t.isLt)).2).symm)

/-- That block, index by index, is the result at the tile's expert and token rows. -/
theorem block_value (c : Dev nD) (t : Fin cfg0.N) (h15 : t.val % 16 = 15) (y : S1x256x2048.Idx) :
    k0_pay3 (F := Ideal) ((outsAt0 m c t.val t.isLt).2) y = result m c (ix3 (expertOf t.val) (rowOf t.val (y 1)) (y 2)) := by
  obtain ⟨u, r, d, rfl⟩ : ∃ (u : Fin 1) (r : Fin 256) (d : Fin 2048), y = ix3 u r d := ⟨y 0, y 1, y 2, eq_ix3 y⟩
  rw [Payload.out_apply, scratch_total m c t h15 r d]
  rfl

/-- A point that writes the output back writes its block of the result. -/
theorem flushed_eq (c : Dev nD) (t : Fin cfg0.N) (hf : (cfg0.win 4).flush t = true) :
    (dats m 0 c).flushed 4 t = ((cfg0.win 4).blk t).view.read (Elt Ideal) (result m c) := by
  have h15 : t.val % 16 = 15 := (flush0_4 t).mp hf
  have h0 : ¬t.val % 16 = 0 := by omega
  rw [Value.flushed4 m c t, out_block m c t h0 h15]
  funext y
  exact (block_value m c t h15 y).trans (congrArg (result m c) (Blocks.out_emb t y).symm)

/-- The result array after the run. -/
theorem final (c : Dev nD) : (dats m 0 c).arrAt 4 cfg0.N = result m c :=
  (dats m 0 c).arrAt_eq_of_cover 4 (result m c) (flushed_eq m c) Blocks.out_cover

/-- The kernel's run: it ends with the result array at `mlp` of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.RefSide.lean ====
/-
  The reference's result is the gated MLP of the specification: read one operation at a time, the host program's last
  `dot_general` at an index is the sum over the 4096 hidden units of `(g · (1 / (1 + exp (-g)))) · u` times `w3`, with
  `g`, `u` the two up projections; `1 / (1 + exp (-g))` is the logistic function on the extended reals.
-/
import proofs.«167826_j44890998177889_1_alg».proof.Proof.Gen.ReferenceIdeal.Read
import proofs.«167826_j44890998177889_1_alg».proof.Proof.Spec
import Idealize.ShloMosaic.Lib.IdealHost

noncomputable section

open scoped BigOperators

namespace Cert.RefSide

open Idealize.ShloMosaic Idealize.ShloMosaic.ValueIdx Cert.ReferenceIdeal Cert.ReferenceIdeal.Read

/-- At the point `(e, T, d)` the last contraction reads the gated product at `(e, T, k)`. -/
theorem lidx_v4 (e : Fin 8) (T : Fin 2048) (d : Fin 2048) (k : Fin 4096) :
    lidx_main_v4 (ix3 e T d) k = ix3 e T k := by
  funext a; match a with | ⟨0, _⟩ => rfl | ⟨1, _⟩ => rfl | ⟨2, _⟩ => rfl

/-- … and the down weights at `(e, k, d)`. -/
theorem ridx_v4 (e : Fin 8) (T : Fin 2048) (d : Fin 2048) (k : Fin 4096) :
    ridx_main_v4 (ix3 e T d) k = ix3 e k d := by
  funext a; match a with | ⟨0, _⟩ => rfl | ⟨1, _⟩ => rfl | ⟨2, _⟩ => rfl

/-- The first up projection at `(e, T, h)` is `proj x w1 e T h`. -/
theorem v0_at (x0 : (⟨S8x2048x2048, .f32⟩ : BufTy).Contents (Elt Ideal))
    (x1 : (⟨S8x2048x4096, .f32⟩ : BufTy).Contents (Elt Ideal)) (e : Fin 8) (T : Fin 2048) (h : Fin 4096) :
    val_main_v0 (F := Ideal) x0 x1 (ix3 e T h) = Cert.Spec.proj x0 x1 e T h := by
  rw [val_main_v0_apply]
  unfold Cert.Spec.proj
  refine Finset.sum_congr rfl fun d _ => ?_
  have el : lidx_main_v0 (ix3 e T h) d = ix3 e T d := by
    funext a; match a with | ⟨0, _⟩ => rfl | ⟨1, _⟩ => rfl | ⟨2, _⟩ => rfl
  have er : ridx_main_v0 (ix3 e T h) d = ix3 e d h := by
    funext a; match a with | ⟨0, _⟩ => rfl | ⟨1, _⟩ => rfl | ⟨2, _⟩ => rfl
  rw [el, er]

/-- The second up projection at `(e, T, h)` is `proj x w2 e T h`. -/
theorem v1_at (x0 : (⟨S8x2048x2048, .f32⟩ : BufTy).Contents (Elt Ideal))
    (x2 : (⟨S8x2048x4096, .f32⟩ : BufTy).Contents (Elt Ideal)) (e : Fin 8) (T : Fin 2048) (h : Fin 4096) :
    val_main_v1 (F := Ideal) x0 x2 (ix3 e T h) = Cert.Spec.proj x0 x2 e T h := by
  rw [val_main_v1_apply]
  unfold Cert.Spec.proj
  refine Finset.sum_congr rfl fun d _ => ?_
  have el : lidx_main_v1 (ix3 e T h) d = ix3 e T d := by
    funext a; match a with | ⟨0, _⟩ => rfl | ⟨1, _⟩ => rfl | ⟨2, _⟩ => rfl
  have er : ridx_main_v1 (ix3 e T h) d = ix3 e d h := by
    funext a; match a with | ⟨0, _⟩ => rfl | ⟨1, _⟩ => rfl | ⟨2, _⟩ => rfl
  rw [el, er]

/-- The broadcast constant is the real one at every index. -/
theorem one_at_v2 (j : S8x2048x4096.Idx) : val_main_call0_v2 (F := Ideal) j = (1 : EReal) := by
  rw [val_main_call0_v2_apply, val_main_call0_cst_apply]
  exact Ideal.ofBits_one_f32

/-- The same for the quotient's numerator. -/
theorem one_at_v4 (j : S8x2048x4096.Idx) : val_main_call0_v4 (F := Ideal) j = (1 : EReal) := by
  rw [val_main_call0_v4_apply, val_main_call0_cst_0_apply]
  exact Ideal.ofBits_one_f32

/-- The quotient `1 / (1 + exp (-g))` the host computes is the logistic function of `g`. -/
theorem v5_at (x0 : (⟨S8x2048x2048, .f32⟩ : BufTy).Contents (Elt Ideal))
    (x1 : (⟨S8x2048x4096, .f32⟩ : BufTy).Contents (Elt Ideal)) (e : Fin 8) (T : Fin 2048) (h : Fin 4096) :
    val_main_call0_v5 (F := Ideal) x0 x1 (ix3 e T h) = Ideal.logistic (Cert.Spec.proj x0 x1 e T h) := by
  rw [val_main_call0_v5_apply, val_main_call0_v3_apply, val_main_call0_v1_apply, val_main_call0_v0_apply,
    one_at_v4, one_at_v2, v0_at]
  rfl

/-- The gated product at `(e, T, h)` is the specification's hidden activation. -/
theorem v3_at (x0 : (⟨S8x2048x2048, .f32⟩ : BufTy).Contents (Elt Ideal))
    (x1 x2 : (⟨S8x2048x4096, .f32⟩ : BufTy).Contents (Elt Ideal)) (e : Fin 8) (T : Fin 2048) (h : Fin 4096) :
    val_main_v3 (F := Ideal) x0 x1 x2 (ix3 e T h) = Cert.Spec.hidden x0 x1 x2 e T h := by
  rw [val_main_v3_apply, val_main_v2_apply, v5_at, v0_at, v1_at]
  rfl

/-- The reference's result at expert `e`, token row `T`, output feature `d`. -/
theorem v4_at (x0 : (⟨S8x2048x2048, .f32⟩ : BufTy).Contents (Elt Ideal))
    (x1 x2 : (⟨S8x2048x4096, .f32⟩ : BufTy).Contents (Elt Ideal))
    (x3 : (⟨S8x4096x2048, .f32⟩ : BufTy).Contents (Elt Ideal)) (e : Fin 8) (T : Fin 2048) (d : Fin 2048) :
    val_main_v4 (F := Ideal) x0 x1 x2 x3 (ix3 e T d) = Cert.Spec.mlpAt x0 x1 x2 x3 e T d := by
  rw [val_main_v4_apply]
  unfold Cert.Spec.mlpAt
  refine Finset.sum_congr rfl fun k _ => ?_
  rw [lidx_v4, ridx_v4, v3_at]

/-- The reference's last stage is `Spec.mlp` of the four arguments. -/
theorem reference_is_mlp (x0 : (⟨S8x2048x2048, .f32⟩ : BufTy).Contents (Elt Ideal))
    (x1 x2 : (⟨S8x2048x4096, .f32⟩ : BufTy).Contents (Elt Ideal))
    (x3 : (⟨S8x4096x2048, .f32⟩ : BufTy).Contents (Elt Ideal)) :
    val_main_v4 (F := Ideal) x0 x1 x2 x3 = Cert.Spec.mlp x0 x1 x2 x3 := by
  funext i
  exact (congrArg (val_main_v4 (F := Ideal) x0 x1 x2 x3) (eq_ix3 i)).trans (v4_at x0 x1 x2 x3 (i 0) (i 1) (i 2))

end Cert.RefSide

end
-- ==== Proof.lean ====
/-
  A per-expert gated MLP (eight experts, 2048 tokens each): for expert `e`, `gate = x[e] · w1[e]`, `up = x[e] · w2[e]`,
  `hidden = (gate · logistic gate) · up`, `out[e] = hidden · w3[e]`.

  The kernel tiles the tokens into row tiles of 256 and the 4096 hidden units into sixteen stretches of 256; at each grid
  point it forms the tile's gated hidden activations for one stretch and adds their down projection to a running total,
  which starts at zero at a tile's first point and is written out after its last. The reference takes the three matrix
  products whole and spells the logistic function as `1 / (1 + exp (-g))`.

  Over the extended reals the two are one function of the four arrays, `Spec.mlp`: a change of float format is the identity,
  a block product into a zero accumulator is the plain sum over its contraction index, `1 / (1 + exp (-g))` is the logistic
  function by definition, and a sum over 4096 hidden units is the same whether taken at once or as sixteen consecutive
  stretches added in order (addition of extended reals is commutative and associative: finiteness of the inputs is not
  used). The kernel's side is `Result.run` (the running total read off the frame run by induction over a tile's points, the
  written-back blocks tiling the result array); the reference's is its run read one operation at a time
  (`RefSide.reference_is_mlp`). The three frames are the generated ones; the idealization rewrote nothing, so `preserves` is
  trivial.
-/
import proofs.«167826_j44890998177889_1_alg».proof.Defs
import proofs.«167826_j44890998177889_1_alg».proof.Proof.Gen.Kernel
import proofs.«167826_j44890998177889_1_alg».proof.Proof.Gen.Kernel.Skeleton
import proofs.«167826_j44890998177889_1_alg».proof.Proof.Gen.Kernel.Launch
import proofs.«167826_j44890998177889_1_alg».proof.Proof.Gen.Kernel.Points
import proofs.«167826_j44890998177889_1_alg».proof.Proof.Gen.Kernel.Frame
import proofs.«167826_j44890998177889_1_alg».proof.Proof.Gen.KernelIdeal
import proofs.«167826_j44890998177889_1_alg».proof.Proof.Gen.KernelIdeal.Skeleton
import proofs.«167826_j44890998177889_1_alg».proof.Proof.Gen.KernelIdeal.Launch
import proofs.«167826_j44890998177889_1_alg».proof.Proof.Gen.KernelIdeal.Points
import proofs.«167826_j44890998177889_1_alg».proof.Proof.Gen.KernelIdeal.Frame
import proofs.«167826_j44890998177889_1_alg».proof.Proof.Gen.ReferenceIdeal
import proofs.«167826_j44890998177889_1_alg».proof.Proof.Gen.Pre_finite_inputs
import proofs.«167826_j44890998177889_1_alg».proof.Proof.Gen.KernelIdeal.Value
import proofs.«167826_j44890998177889_1_alg».proof.Proof.Gen.ReferenceIdeal.Run
import proofs.«167826_j44890998177889_1_alg».proof.Proof.Gen.ReferenceIdeal.Read
import proofs.«167826_j44890998177889_1_alg».proof.Proof.Result
import proofs.«167826_j44890998177889_1_alg».proof.Proof.RefSide
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the four arguments, the idealized kernel and the idealized reference both end with the
    result array at `Spec.mlp` of the arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.RefSide.reference_is_mlp, (hagree c).1, (hagree c).2.1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
